-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S10x4096 : Shape := ⟨2, ![10, 4096]⟩
abbrev S10 : Shape := ⟨1, ![10]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S10x4096 : S_.BroadcastsInDim S10x4096 (![] : Fin 0 → Fin S10x4096.rank)
  reducesTo_S10x4096_S_d0_1 : S10x4096.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S4096x4096 .f32) (main_arg5 : FVec F S4096x4096 .f32) (main_arg6 : FVec F S10x4096 .f32) (main_arg7 : FVec F S10 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S10x4096 .f32 := Host.absf main_arg6
  let main_cst_10 : FVec F S_ .f32 := constant S_ .f32 0x7F800000#32
  let main_v30 : FVec F S10x4096 .f32 := broadcastInDim S10x4096 ![] bcast_S_S10x4096 main_cst_10
  let main_v31 : IVec S10x4096 1 := cmpf .olt main_v29 main_v30
  let main_c_11 : IVec S_ 1 := constantI S_ 1 1#1
  let main_v32 : IVec S_ 1 := (fun x v => Host.reduce IntOp.andi x v reducesTo_S10x4096_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x4096 .f32) (main_arg5 : FVec F S4096x4096 .f32) (main_arg6 : FVec F S10x4096 .f32) (main_arg7 : FVec F S10 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x4096 : Shape := ⟨2, ![4096, 4096]⟩
abbrev S10x4096 : Shape := ⟨2, ![10, 4096]⟩
abbrev S10 : Shape := ⟨1, ![10]⟩
abbrev S1024x1024 : Shape := ⟨2, ![1024, 1024]⟩
abbrev S_ : Shape := ⟨0, ![]⟩
abbrev S1024x512 : Shape := ⟨2, ![1024, 512]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 48
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S10x4096, .f32⟩
  | .hbm, ⟨7, _⟩ => ⟨S10, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S4096x4096, .f32⟩
  | .hbm, ⟨20, _⟩ => ⟨S4096x10, .f32⟩
  | .hbm, ⟨21, _⟩ => ⟨S4096x10, .f32⟩
  | .hbm, ⟨22, _⟩ => ⟨S1x10, .f32⟩
  | .hbm, ⟨23, _⟩ => ⟨S4096x10, .f32⟩
  | .hbm, ⟨24, _⟩ => ⟨S4096x10, .f32⟩
  | .hbm, ⟨25, _⟩ => ⟨S4096x10, .f32⟩
  | .hbm, ⟨26, _⟩ => ⟨S4096x10, .f32⟩
  | .hbm, ⟨27, _⟩ => ⟨S_, .f32⟩
  | .hbm, ⟨28, _⟩ => ⟨S4096x10, .f32⟩
  | .hbm, ⟨29, _⟩ => ⟨S4096x10, .f32⟩
  | .hbm, ⟨30, _⟩ => ⟨S_, .f32⟩
  | .hbm, ⟨31, _⟩ => ⟨S4096x10, .f32⟩
  | .hbm, ⟨32, _⟩ => ⟨S4096x10, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S4096x10, .f32⟩
  | .hbm, ⟨40, _⟩ => ⟨S4096x10, .f32⟩
  | .hbm, ⟨41, _⟩ => ⟨S4096x10, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S4096x10, .f32⟩
  | .hbm, ⟨47, _⟩ => ⟨S4096x10, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v20 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨3, ![4, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  bcast_S_S4096x4096 : S_.BroadcastsInDim S4096x4096 (![] : Fin 0 → Fin S4096x4096.rank)
  inb_S1024x512_S1024x512_0_0 : ∀ a, (![0, 0] : Fin 2 → Nat) a + S1024x512.size a ≤ S1024x512.size a
  h_S1024x512 : 0 < S1024x512.numel
  transposes_S10x4096_S4096x10_1_0 : S10x4096.Transposes [1, 0] S4096x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  dot_S1024x1024_S1024x1024_S1024x1024_1_1_0_0_n_n_wf : DotDims.WF S1024x1024 S1024x1024 S1024x1024 [1] [1] [0] [0] [] []
  dot_S4096x4096_S4096x10_S4096x10_1_0_0_1_n_n_wf : DotDims.WF S4096x4096 S4096x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .f32 = 32 ∨ (Rect.block (s := S4096x4096) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x4096.size a
  hwx1_4 : ∀ i : grid1.Coords, EltTy.bits .f32 = 32 ∨ (Rect.block (s := S4096x4096) S1024x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S4096x4096_S4096x10_S4096x10_1_0_0_1_n_n : DotDims S4096x4096 S4096x10 S4096x10 where
  lhsContracting := [1]
  rhsContracting := [0]
  lhsNonContracting := [0]
  rhsNonContracting := [1]
  lhsBatch := []
  rhsBatch := []
  wf := dot_S4096x4096_S4096x10_S4096x10_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S10x4096 : Shape := ⟨2, ![10, 4096]⟩
abbrev S10 : Shape := ⟨1, ![10]⟩
abbrev S_ : Shape := ⟨0, ![]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S10x4096, .f32⟩
  | .hbm, ⟨7, _⟩ => ⟨S10, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S4096x4096, .f32⟩
  | .hbm, ⟨32, _⟩ => ⟨S4096x10, .f32⟩
  | .hbm, ⟨33, _⟩ => ⟨S4096x10, .f32⟩
  | .hbm, ⟨34, _⟩ => ⟨S1x10, .f32⟩
  | .hbm, ⟨35, _⟩ => ⟨S4096x10, .f32⟩
  | .hbm, ⟨36, _⟩ => ⟨S4096x10, .f32⟩
  | .hbm, ⟨37, _⟩ => ⟨S4096x10, .f32⟩
  | .hbm, ⟨38, _⟩ => ⟨S4096x10, .f32⟩
  | .hbm, ⟨39, _⟩ => ⟨S_, .f32⟩
  | .hbm, ⟨40, _⟩ => ⟨S4096x10, .f32⟩
  | .hbm, ⟨41, _⟩ => ⟨S4096x10, .f32⟩
  | .hbm, ⟨42, _⟩ => ⟨S_, .f32⟩
  | .hbm, ⟨43, _⟩ => ⟨S4096x10, .f32⟩
  | .hbm, ⟨44, _⟩ => ⟨S4096x10, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x10, .f32⟩
  | .hbm, ⟨52, _⟩ => ⟨S4096x10, .f32⟩
  | .hbm, ⟨53, _⟩ => ⟨S4096x10, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x10, .f32⟩
  | .hbm, ⟨59, _⟩ => ⟨S4096x10, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  transposes_S10x4096_S4096x10_1_0 : S10x4096.Transposes [1, 0] S4096x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  dot_S4096x4096_S4096x4096_S4096x4096_1_0_0_1_n_n_wf : DotDims.WF S4096x4096 S4096x4096 S4096x4096 [1] [0] [0] [1] [] []
  dot_S4096x4096_S4096x10_S4096x10_1_0_0_1_n_n_wf : DotDims.WF S4096x4096 S4096x10 S4096x10 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x10_S4096x10_1_0_0_1_n_n : DotDims S4096x4096 S4096x10 S4096x10 where
  lhsContracting := [1]
  rhsContracting := [0]
  lhsNonContracting := [0]
  rhsNonContracting := [1]
  lhsBatch := []
  rhsBatch := []
  wf := dot_S4096x4096_S4096x10_S4096x10_1_0_0_1_n_n_wf

class Facts : Prop extends Facts₀ where

variable [Facts]
-- ==== Proof.Walk.lean ====
/-
  What each result buffer of the idealized program holds when @main returns, walked back through @main's segments:
  a stretch of host operations that does not write a buffer leaves it, a kernel region leaves every buffer that is
  not one of its arrays, a region's own output array ends at what its write-backs leave, and a host operation's
  result is its function of its operands. So
    isyn's buffer      = what region 0's write-backs leave in its output array;
    vmem's buffer      = b · prev_vmem + isyn's buffer (the host's multiply and add);
    eps0's, eps1's     = what region 1's write-backs leave in its two output arrays;
    output's buffer    = the threshold of vmem's buffer against 1/2, as a float;
    pvoutput's buffer  = the classifier head (a sigmoid of pv · Woᵀ + bo, then a log-softmax along each row) of what
                         region 2's write-backs leave in its output array.
  The regions enter with the arguments as launched, region 2 with eps1's array as region 1 left it.
-/
import proofs.«127716_j68977174773809_1_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The sigmoid of the classifier's logits `pv · Woᵀ + bo`, as the host computes it: `1 / (1 + exp (-(·)))`. -/
def head (pv : (⟨S4096x4096, .f32⟩ : BufTy).Contents (Elt F)) (wo : (⟨S10x4096, .f32⟩ : BufTy).Contents (Elt F))
    (bo : (⟨S10, .f32⟩ : BufTy).Contents (Elt F)) : (⟨S4096x10, .f32⟩ : BufTy).Contents (Elt F) :=
  Host.divf (broadcastInDim S4096x10 ![] bcast_S_S4096x10 (constant S_ .f32 0x3F800000#32))
    (addf (broadcastInDim S4096x10 ![] bcast_S_S4096x10 (constant S_ .f32 0x3F800000#32))
      (Host.exp (Host.negf (addf
        (Host.dotGeneral dot_S4096x4096_S4096x10_S4096x10_1_0_0_1_n_n none pv (transpose S4096x10 [1, 0] wo transposes_S10x4096_S4096x10_1_0))
        (broadcastInDim S4096x10 ![0, 1] bcast_S1x10_S4096x10_0_1 (broadcastInDim S1x10 ![1] bcast_S10_S1x10_1 bo))))))

/-- Each row's maximum (against -∞), spread back over the row. -/
def rowMax (s : (⟨S4096x10, .f32⟩ : BufTy).Contents (Elt F)) : (⟨S4096x10, .f32⟩ : BufTy).Contents (Elt F) :=
  broadcastInDim S4096x10 ![0, 1] bcast_S4096x1_S4096x10_0_1 (broadcastInDim S4096x1 ![0] bcast_S4096_S4096x1_0
    (maximumf (broadcastInDim S4096 ![] bcast_S_S4096 (constant S_ .f32 0xFF800000#32))
      (Host.reduce FloatOps.maximumf s (constant S_ .f32 0xFF800000#32) reducesTo_S4096x10_S4096_d1 h_S_)))

/-- The host's log-softmax along each row: `(s - max) - log ∑ exp (s - max)`. -/
def logSoftmax (s : (⟨S4096x10, .f32⟩ : BufTy).Contents (Elt F)) : (⟨S4096x10, .f32⟩ : BufTy).Contents (Elt F) :=
  subf (subf s (rowMax s))
    (broadcastInDim S4096x10 ![0, 1] bcast_S4096x1_S4096x10_0_1 (Host.log (broadcastInDim S4096x1 ![0] bcast_S4096_S4096x1_0
      (Host.reduceAdd (Host.exp (subf s (rowMax s))) (constant S_ .f32 0x00000000#32) reducesTo_S4096x10_S4096_d1 h_S_))))

/-- vmem from isyn. -/
def vmemOf (pvm isyn : (⟨S4096x4096, .f32⟩ : BufTy).Contents (Elt F)) : (⟨S4096x4096, .f32⟩ : BufTy).Contents (Elt F) :=
  addf (mulf (broadcastInDim S4096x4096 ![] bcast_S_S4096x4096 (constant S_ .f32 0x3F666666#32)) pvm) isyn

/-- The spike threshold: 1 where vmem > 1/2, else 0. -/
def spikes (vmem : (⟨S4096x4096, .f32⟩ : BufTy).Contents (Elt F)) : (⟨S4096x4096, .f32⟩ : BufTy).Contents (Elt F) :=
  uitofp (F := F) .f32 (cmpf (F := F) .ogt vmem (broadcastInDim S4096x4096 ![] bcast_S_S4096x4096 (constant S_ .f32 0x3F000000#32)))

variable (m : (ℓ : Loc nD τ sig) → Buf (Elt F) ℓ) (ρ : Dev nD → PrngReg)

/-- No operation of the named stretch writes the buffer in question. -/
macro "skip_stretch" "[" ops:ident "]" : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The regions' entry contents -/

theorem V2_arg0 (c : Dev nD) : V2 m ρ c main_arg0 = m ((c : Thread nD τ).loc main_arg0) :=
  calc W2 m ρ c (Proc.devRef .tc main_arg0)
    _ = W1 m ρ c (Proc.devRef .tc main_arg0) := by skip_stretch [hostOps1]
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem V2_arg3 (c : Dev nD) : V2 m ρ c main_arg3 = m ((c : Thread nD τ).loc main_arg3) :=
  calc W2 m ρ c (Proc.devRef .tc main_arg3)
    _ = W1 m ρ c (Proc.devRef .tc main_arg3) := by skip_stretch [hostOps1]
    _ = W0 m ρ c (Proc.devRef .tc main_arg3) := W1_of_ne m ρ c main_arg3 (by decide)
    _ = m ((c : Thread nD τ).loc main_arg3) := rfl

theorem V2_arg4 (c : Dev nD) : V2 m ρ c main_arg4 = m ((c : Thread nD τ).loc main_arg4) :=
  calc W2 m ρ c (Proc.devRef .tc main_arg4)
    _ = W1 m ρ c (Proc.devRef .tc main_arg4) := by skip_stretch [hostOps1]
    _ = W0 m ρ c (Proc.devRef .tc main_arg4) := W1_of_ne m ρ c main_arg4 (by decide)
    _ = m ((c : Thread nD τ).loc main_arg4) := rfl

theorem V3_v4_1 (c : Dev nD) : V3 m ρ c main_v4_1 = (dat1 (V2 m ρ) c).arrAt 4 cfg1.N := W3_arr m ρ c 4

theorem V3_arg5 (c : Dev nD) : V3 m ρ c main_arg5 = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by skip_stretch [hostOps1]
    _ = W0 m ρ c (Proc.devRef .tc main_arg5) := (W1_arr m ρ c 1).trans (((dat0 (V0 m ρ) c).arrAt_in 1 rfl _).trans (A_eq0 (V0 m ρ) c 1))
    _ = m ((c : Thread nD τ).loc main_arg5) := rfl

/-! ## The result buffers -/

theorem at_v0 (c : Dev nD) : W6 m ρ c (Proc.devRef .tc main_v0) = (dat0 (V0 m ρ) c).arrAt 3 cfg0.N :=
  calc W6 m ρ c (Proc.devRef .tc main_v0)
    _ = W5 m ρ c (Proc.devRef .tc main_v0) := by skip_stretch [hostOps3_1]
    _ = W4 m ρ c (Proc.devRef .tc main_v0) := by skip_stretch [hostOps3]
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := by skip_stretch [hostOps1]
    _ = (dat0 (V0 m ρ) c).arrAt 3 cfg0.N := W1_arr m ρ c 3

theorem W2_v3 (c : Dev nD) : W2 m ρ c (Proc.devRef .tc main_v3)
    = vmemOf (m ((c : Thread nD τ).loc main_arg2)) ((dat0 (V0 m ρ) c).arrAt 3 cfg0.N) := by
  have e2 : W1 m ρ c (Proc.devRef .tc main_arg2) = m ((c : Thread nD τ).loc main_arg2) := W1_of_ne m ρ c main_arg2 (by decide)
  have e0 : W1 m ρ c (Proc.devRef .tc main_v0) = (dat0 (V0 m ρ) c).arrAt 3 cfg0.N := W1_arr m ρ c 3
  show StableHlo.after hostOps1 (W1 m ρ c) (Proc.devRef .tc main_v3) = _
  after_results
  rw [e2, e0]
  rfl

theorem at_v3 (c : Dev nD) : W6 m ρ c (Proc.devRef .tc main_v3)
    = vmemOf (m ((c : Thread nD τ).loc main_arg2)) ((dat0 (V0 m ρ) c).arrAt 3 cfg0.N) :=
  calc W6 m ρ c (Proc.devRef .tc main_v3)
    _ = W5 m ρ c (Proc.devRef .tc main_v3) := by skip_stretch [hostOps3_1]
    _ = W4 m ρ c (Proc.devRef .tc main_v3) := by skip_stretch [hostOps3]
    _ = W3 m ρ c (Proc.devRef .tc main_v3) := W4_of_ne m ρ c main_v3 (by decide)
    _ = W2 m ρ c (Proc.devRef .tc main_v3) := W3_of_ne m ρ c main_v3 (by decide)
    _ = _ := W2_v3 m ρ c

theorem at_v4_0 (c : Dev nD) : W6 m ρ c (Proc.devRef .tc main_v4_0) = (dat1 (V2 m ρ) c).arrAt 3 cfg1.N :=
  calc W6 m ρ c (Proc.devRef .tc main_v4_0)
    _ = W5 m ρ c (Proc.devRef .tc main_v4_0) := by skip_stretch [hostOps3_1]
    _ = W4 m ρ c (Proc.devRef .tc main_v4_0) := by skip_stretch [hostOps3]
    _ = W3 m ρ c (Proc.devRef .tc main_v4_0) := W4_of_ne m ρ c main_v4_0 (by decide)
    _ = (dat1 (V2 m ρ) c).arrAt 3 cfg1.N := W3_arr m ρ c 3

theorem at_v4_1 (c : Dev nD) : W6 m ρ c (Proc.devRef .tc main_v4_1) = (dat1 (V2 m ρ) c).arrAt 4 cfg1.N :=
  calc W6 m ρ c (Proc.devRef .tc main_v4_1)
    _ = W5 m ρ c (Proc.devRef .tc main_v4_1) := by skip_stretch [hostOps3_1]
    _ = W4 m ρ c (Proc.devRef .tc main_v4_1) := by skip_stretch [hostOps3]
    _ = W3 m ρ c (Proc.devRef .tc main_v4_1) := (W4_arr m ρ c 0).trans (((dat2 (V3 m ρ) c).arrAt_in 0 rfl _).trans (A_eq2 (V3 m ρ) c 0))
    _ = (dat1 (V2 m ρ) c).arrAt 4 cfg1.N := W3_arr m ρ c 4

theorem W4_v3 (c : Dev nD) : W4 m ρ c (Proc.devRef .tc main_v3)
    = vmemOf (m ((c : Thread nD τ).loc main_arg2)) ((dat0 (V0 m ρ) c).arrAt 3 cfg0.N) :=
  calc W4 m ρ c (Proc.devRef .tc main_v3)
    _ = W3 m ρ c (Proc.devRef .tc main_v3) := W4_of_ne m ρ c main_v3 (by decide)
    _ = W2 m ρ c (Proc.devRef .tc main_v3) := W3_of_ne m ρ c main_v3 (by decide)
    _ = _ := W2_v3 m ρ c

/-! ## The two host stretches after the last region, from any contents `X` -/

/-- The first stretch writes the thresholded vmem … -/
theorem spikes_after (X : Valuation τ sig (Elt F)) :
    StableHlo.after hostOps3 X (Proc.devRef .tc main_v8) = spikes (X (Proc.devRef .tc main_v3)) := by
  after_results
  rfl

/-- … and the sigmoid of the logits of whatever region 2 left in its output array. -/
theorem head_after (X : Valuation τ sig (Elt F)) :
    StableHlo.after hostOps3 X (Proc.devRef .tc main_v19)
      = head (X (Proc.devRef .tc main_v5)) (X (Proc.devRef .tc main_arg6)) (X (Proc.devRef .tc main_arg7)) := by
  after_results
  rfl

set_option maxRecDepth 65536 in
/-- The second stretch is the log-softmax of that. -/
theorem logSoftmax_after (X : Valuation τ sig (Elt F)) :
    StableHlo.after hostOps3_1 X (Proc.devRef .tc main_v20) = logSoftmax (X (Proc.devRef .tc main_v19)) := by
  after_results
  unfold logSoftmax rowMax
  simp only [TRef.ofBuf, TRef.toBuf, cast_eq]

theorem at_v8 (c : Dev nD) : W6 m ρ c (Proc.devRef .tc main_v8)
    = spikes (vmemOf (m ((c : Thread nD τ).loc main_arg2)) ((dat0 (V0 m ρ) c).arrAt 3 cfg0.N)) :=
  calc W6 m ρ c (Proc.devRef .tc main_v8)
    _ = W5 m ρ c (Proc.devRef .tc main_v8) := by skip_stretch [hostOps3_1]
    _ = spikes (W4 m ρ c (Proc.devRef .tc main_v3)) := spikes_after (W4 m ρ c)
    _ = _ := congrArg spikes (W4_v3 m ρ c)

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := by skip_stretch [hostOps1]
    _ = W0 m ρ c (Proc.devRef .tc main_arg6) := W1_of_ne m ρ c main_arg6 (by decide)
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := by skip_stretch [hostOps1]
    _ = W0 m ρ c (Proc.devRef .tc main_arg7) := W1_of_ne m ρ c main_arg7 (by decide)
    _ = m ((c : Thread nD τ).loc main_arg7) := rfl

theorem at_v20 (c : Dev nD) : W6 m ρ c (Proc.devRef .tc main_v20)
    = logSoftmax (head ((dat2 (V3 m ρ) c).arrAt 2 cfg2.N) (m ((c : Thread nD τ).loc main_arg6)) (m ((c : Thread nD τ).loc main_arg7))) := by
  have e5 : W4 m ρ c (Proc.devRef .tc main_v5) = (dat2 (V3 m ρ) c).arrAt 2 cfg2.N := W4_arr m ρ c 2
  refine (logSoftmax_after (W5 m ρ c)).trans (congrArg logSoftmax ((head_after (W4 m ρ c)).trans ?_))
  rw [e5, W4_arg6 m ρ c, W4_arg7 m ρ c]

end Cert.KernelIdeal.Walk

end
-- ==== Proof.Spec.lean ====
/-
  What the program computes, as functions of whole arrays read index by index over the extended reals.

  With `x`, `W`, and the previous states as 4096 × 4096 arrays:
    isyn (r, c) = a · prev_isyn (r, c) + ∑ₖ x (r, k) · W (c, k)        (a = the f32 word of 0.85)
    eps0 (r, c) = a · prev_eps0 (r, c) + x (r, c)
    eps1 (r, c) = b · prev_eps1 (r, c) + eps0 (r, c)                   (b = the f32 word of 0.9)
    pv   (r, c) = ∑ₖ eps1 (r, k) · W (c, k)
  A row-against-row product over 4096 columns is the sum of its four 1024-column pieces, added in order onto
  zero: only `0 + a = a` and the grouping of a finite sum are used, so nothing here asks the entries to be finite.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- The 4096 × 4096 index space. -/
abbrev Sq : Shape := ⟨2, ![4096, 4096]⟩

/-- The two decay factors, as the words both programs carry. -/
abbrev ca : EReal := Ideal.ofBits .f32 0x3F59999A#32
abbrev cb : EReal := Ideal.ofBits .f32 0x3F666666#32

/-- An index's two coordinates as numbers below 4096. -/
abbrev row (i : Sq.Idx) : Fin 4096 := ⟨(i 0).val, (i 0).isLt⟩
abbrev col (i : Sq.Idx) : Fin 4096 := ⟨(i 1).val, (i 1).isLt⟩

/-- Row `r` of `a` against row `c` of `w`: the entry (r, c) of `a · wᵀ`. -/
def rowDot (a w : Sq.Idx → EReal) (r c : Fin 4096) : EReal :=
  ∑ k : Fin 4096, a (ix2 r k) * w (ix2 c k)

/-- Column `1024 j + l` of the long axis. -/
abbrev colAt (j : Fin 4) (l : Fin 1024) : Fin 4096 := ⟨1024 * j.val + l.val, by omega⟩

/-- The same product over the `j`-th piece of 1024 columns only. -/
def blockDot (a w : Sq.Idx → EReal) (r c : Fin 4096) (j : Fin 4) : EReal :=
  ∑ l : Fin 1024, a (ix2 r (colAt j l)) * w (ix2 c (colAt j l))

/-- A sum over 4096 columns, grouped into four runs of 1024. -/
theorem sum_blocks {M : Type*} [AddCommMonoid M] (g : Fin 4096 → M) :
    ∑ k : Fin 4096, g k = ∑ j : Fin 4, ∑ l : Fin 1024, g (colAt j l) := by
  rw [← Equiv.sum_comp (finProdFinEquiv : Fin 4 × Fin 1024 ≃ Fin 4096) g, Fintype.sum_prod_type]
  refine Finset.sum_congr rfl fun j _ => Finset.sum_congr rfl fun l _ => congrArg g (Fin.ext ?_)
  show l.val + 1024 * j.val = 1024 * j.val + l.val
  omega

/-- The whole product is its four pieces added in order onto zero, as an accumulator that starts at zero builds it. -/
theorem rowDot_blocks (a w : Sq.Idx → EReal) (r c : Fin 4096) :
    rowDot a w r c = (((0 + blockDot a w r c 0) + blockDot a w r c 1) + blockDot a w r c 2) + blockDot a w r c 3 := by
  unfold rowDot
  rw [sum_blocks, Fin.sum_univ_four, zero_add]
  rfl

/-- isyn. -/
def isyn (x w pis : Sq.Idx → EReal) : Sq.Idx → EReal :=
  fun i => ca * pis i + rowDot x w (row i) (col i)

/-- eps0. -/
def eps0 (x pe0 : Sq.Idx → EReal) : Sq.Idx → EReal :=
  fun i => ca * pe0 i + x i

/-- eps1. -/
def eps1 (x pe0 pe1 : Sq.Idx → EReal) : Sq.Idx → EReal :=
  fun i => cb * pe1 i + eps0 x pe0 i

/-- pv. -/
def pv (e w : Sq.Idx → EReal) : Sq.Idx → EReal :=
  fun i => rowDot e w (row i) (col i)

theorem isyn_ix2 (x w pis : Sq.Idx → EReal) (r c : Fin 4096) :
    isyn x w pis (ix2 r c) = ca * pis (ix2 r c) + rowDot x w r c := rfl

theorem pv_ix2 (e w : Sq.Idx → EReal) (r c : Fin 4096) : pv e w (ix2 r c) = rowDot e w r c := rfl

end Cert.Spec

end
-- ==== Proof.IsynRegion.lean ====
/-
  The first kernel region (isyn) read as a value at the ideal instance: whatever the region finds in its arrays, its
  output array ends holding a · prev_isyn + x · Wᵀ, entry by entry.
-/
import proofs.«127716_j68977174773809_1_alg».proof.Proof.Gen.KernelIdeal.Frame
import proofs.«127716_j68977174773809_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.IsynRegion

open Idealize.ShloMosaic Idealize.ShloMosaic.TcCoe Idealize.SL.Sem Idealize.ShloMosaic.ValueIdx
open Idealize.ShloMosaic.Pipeline (Dat)
open Cert.KernelIdeal Cert.KernelIdeal.Gen

/-! ## What each case of the body leaves in the output block, generic in the float instance -/

section Cases
variable {F : FTy → Type} [FloatOps F]

theorem hz : (![0, 0] : Fin 2 → Nat) = fun _ => 0 := funext fun a => by fin_cases a <;> rfl

/-- A middle point (k = 1, 2): the block holding `xo` is left at `xo + x · wᵀ` of the point's two input blocks. -/
theorem out_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 x2 xo : Vec F S1024x1024 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  sl_unfold_words
  rw [View.canon_unit_zero hz]
  simp only [View.readAt_eq_ld, h3.read_unread, h4.read_unread, h6.read_unread, View.ld_unit_zero (S := S1024x1024) hz]

/-- The first point of a run (k = 0): the block is zeroed, read back, and left at `0 + x · wᵀ`. -/
theorem out_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 x2 : Vec F S1024x1024 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point of a run (k = 3): the block holding `xo` is set to `xo + x · wᵀ`, read back, and left at
    `a · prev + (xo + x · wᵀ)`. -/
theorem out_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 x2 xo : Vec F S1024x1024 .f32) :
    out0_C_3 c i a3 h3 a4 h4 a5 h5 a6 h6 hc0 hc1 x0 x1 x2 xo = k0_pay3 x2 (k0_pay2 x0 x1 xo) := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S1024x1024) hz, View.readCov_unit_zero (S := S1024x1024) _ hz]
  simp only [View.readAt_eq_ld, h3.read_unread, h4.read_unread, h5.read_unread, h6.read_unread, View.ld_unit_zero (S := S1024x1024) hz]

end Cases

/-! ## The payloads at an entry of the block, at the ideal instance -/

/-- The zero block reads the extended real zero. -/
theorem pay1_apply (p q : Fin 1024) : (k0_pay1 (F := Ideal) : Vec Ideal S1024x1024 .f32) (ix2 p q) = 0 :=
  Ideal.ofBits_zero_f32

theorem dot_lhs_0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem dot_lhs_1 (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
theorem dot_rhs_0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem dot_rhs_1 (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The block product into the zero accumulator, at entry (p, q): row p of the left block against row q of the right. -/
theorem blockProd_apply (a b : FVec Ideal S1024x1024 .bf16) (p q : Fin 1024) :
    (matmul dot_S1024x1024_S1024x1024_S1024x1024_1_1_0_0_n_n none a b (constant S1024x1024 .f32 0x00000000#32) : FVec Ideal S1024x1024 .f32) (ix2 p q)
      = ∑ l : Fin 1024, a (ix2 p l) * b (ix2 q l) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun l _ => ?_
  have hl := contrEquiv1_symm_val dot_S1024x1024_S1024x1024_S1024x1024_1_1_0_0_n_n 1024 rfl rfl l
  have el : dot_S1024x1024_S1024x1024_S1024x1024_1_1_0_0_n_n.lhsIdx (ix2 p q)
      ((contrEquiv1 dot_S1024x1024_S1024x1024_S1024x1024_1_1_0_0_n_n 1024 rfl rfl).symm l) = ix2 p l :=
    funext fun d => Fin.ext (by
      match d with
      | ⟨0, _⟩ => exact dot_lhs_0 _ _
      | ⟨1, _⟩ => exact (dot_lhs_1 _ _).trans hl)
  have er : dot_S1024x1024_S1024x1024_S1024x1024_1_1_0_0_n_n.rhsIdx (ix2 p q)
      ((contrEquiv1 dot_S1024x1024_S1024x1024_S1024x1024_1_1_0_0_n_n 1024 rfl rfl).symm l) = ix2 q l :=
    funext fun d => Fin.ext (by
      match d with
      | ⟨0, _⟩ => exact dot_rhs_0 _ _
      | ⟨1, _⟩ => exact (dot_rhs_1 _ _).trans hl)
  rw [el, er]

/-- The accumulating store's value at entry (p, q): what the block held there plus the product's entry (the format change
    of the operands is the identity on the ideal values, and so is the shape cast to the same shape). -/
theorem pay2_apply (x0 x1 xo : Vec Ideal S1024x1024 .f32) (p q : Fin 1024) :
    k0_pay2 x0 x1 xo (ix2 p q) = xo (ix2 p q) + ∑ l : Fin 1024, x0 (ix2 p l) * x1 (ix2 q l) := by
  unfold k0_pay2
  refine (addf_apply _ _ (ix2 p q)).trans ?_
  refine congrArg₂ (· + ·) (congrFun (shapeCast_self xo shapeCasts_S1024x1024_S1024x1024) (ix2 p q)) ?_
  exact blockProd_apply _ _ p q

/-- The closing store's value at entry (p, q): a · prev + what the block held. -/
theorem pay3_apply (x2 v : Vec Ideal S1024x1024 .f32) (p q : Fin 1024) :
    k0_pay3 x2 v (ix2 p q) = Cert.Spec.ca * x2 (ix2 p q) + v (ix2 p q) := by
  unfold k0_pay3
  refine (addf_apply _ _ (ix2 p q)).trans ?_
  exact congrArg₂ (· + ·) (mulf_apply _ _ (ix2 p q)) (congrFun (shapeCast_self v shapeCasts_S1024x1024_S1024x1024) (ix2 p q))

/-! ## The region at the contents `V` it finds -/

section Region
variable (V : (c : Dev nD) → (b : Ref sig .tc) → Buf (Elt Ideal) ((c : Thread nD τ).loc b))

/-- The three arrays the region reads, as functions of a (row, column) index. -/
abbrev xarr (c : Dev nD) : Cert.Spec.Sq.Idx → EReal := V c main_arg0
abbrev warr (c : Dev nD) : Cert.Spec.Sq.Idx → EReal := V c main_arg5
abbrev parr (c : Dev nD) : Cert.Spec.Sq.Idx → EReal := V c main_arg1

/-- The three input blocks at a point. -/
abbrev xblk (c : Dev nD) (t : Fin cfg0.N) : Vec Ideal S1024x1024 .f32 := iblk0 V c 0 t
abbrev wblk (c : Dev nD) (t : Fin cfg0.N) : Vec Ideal S1024x1024 .f32 := iblk0 V c 1 t
abbrev pblk (c : Dev nD) (t : Fin cfg0.N) : Vec Ideal S1024x1024 .f32 := iblk0 V c 2 t

/-- Point t = 16 i + 4 j + k reads block (i, k) of x, block (j, k) of W, block (i, j) of prev, and writes block (i, j). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem xblk_apply (c : Dev nD) (t : Fin cfg0.N) (p l : Fin 1024) (r k : Fin 4096)
    (hr : r.val = 1024 * (t.val / 16) + p.val) (hk : k.val = 1024 * (t.val % 4) + l.val) :
    xblk V c t (ix2 p l) = xarr V c (ix2 r k) := by
  obtain ⟨e0, e1, -⟩ := idx_facts t
  show iblk0 V c 0 t (ix2 p l) = V c main_arg0 (ix2 r k)
  unfold iblk0
  rw [View.read_apply]
  show V c main_arg0 _ = V c main_arg0 _
  congr 1
  funext a
  apply Fin.ext
  match a with
  | ⟨0, _⟩ => show win0_0.index t 0 * 1024 + 1 * p.val = r.val; rw [e0, hr]; omega
  | ⟨1, _⟩ => show win0_0.index t 1 * 1024 + 1 * l.val = k.val; rw [e1, hk]; omega

theorem wblk_apply (c : Dev nD) (t : Fin cfg0.N) (p l : Fin 1024) (r k : Fin 4096)
    (hr : r.val = 1024 * (t.val / 4 % 4) + p.val) (hk : k.val = 1024 * (t.val % 4) + l.val) :
    wblk V c t (ix2 p l) = warr V c (ix2 r k) := by
  obtain ⟨-, -, e0, e1, -⟩ := idx_facts t
  show iblk0 V c 1 t (ix2 p l) = V c main_arg5 (ix2 r k)
  unfold iblk0
  rw [View.read_apply]
  show V c main_arg5 _ = V c main_arg5 _
  congr 1
  funext a
  apply Fin.ext
  match a with
  | ⟨0, _⟩ => show win0_1.index t 0 * 1024 + 1 * p.val = r.val; rw [e0, hr]; omega
  | ⟨1, _⟩ => show win0_1.index t 1 * 1024 + 1 * l.val = k.val; rw [e1, hk]; omega

theorem pblk_apply (c : Dev nD) (t : Fin cfg0.N) (p l : Fin 1024) (r k : Fin 4096)
    (hr : r.val = 1024 * (t.val / 16) + p.val) (hk : k.val = 1024 * (t.val / 4 % 4) + l.val) :
    pblk V c t (ix2 p l) = parr V c (ix2 r k) := by
  obtain ⟨-, -, -, -, e0, e1, -⟩ := idx_facts t
  show iblk0 V c 2 t (ix2 p l) = V c main_arg1 (ix2 r k)
  unfold iblk0
  rw [View.read_apply]
  show V c main_arg1 _ = V c main_arg1 _
  congr 1
  funext a
  apply Fin.ext
  match a with
  | ⟨0, _⟩ => show win0_2.index t 0 * 1024 + 1 * p.val = r.val; rw [e0, hr]; omega
  | ⟨1, _⟩ => show win0_2.index t 1 * 1024 + 1 * l.val = k.val; rw [e1, hk]; omega

/-- One accumulation step at entry (p, q) of the block of point t, k = t % 4: the product's entry is the k-th piece of
    row r of x against row cc of W. -/
theorem step_apply (c : Dev nD) (t : Fin cfg0.N) (kb : Fin 4) (hk : t.val % 4 = kb.val) (p q : Fin 1024) (r cc : Fin 4096)
    (hr : r.val = 1024 * (t.val / 16) + p.val) (hc : cc.val = 1024 * (t.val / 4 % 4) + q.val)
    (xo : Vec Ideal S1024x1024 .f32) :
    k0_pay2 (xblk V c t) (wblk V c t) xo (ix2 p q)
      = xo (ix2 p q) + Cert.Spec.blockDot (xarr V c) (warr V c) r cc kb := by
  refine (pay2_apply (xblk V c t) (wblk V c t) xo p q).trans ?_
  refine congrArg (xo (ix2 p q) + ·) ?_
  unfold Cert.Spec.blockDot
  refine Finset.sum_congr rfl fun l _ => ?_
  rw [xblk_apply V c t p l r (Cert.Spec.colAt kb l) hr (by show 1024 * kb.val + l.val = _; rw [hk]),
    wblk_apply V c t q l cc (Cert.Spec.colAt kb l) hc (by show 1024 * kb.val + l.val = _; rw [hk])]

/-- The accumulator after the pieces 0 … k of a row product, added in order onto zero. -/
def part (a w : Cert.Spec.Sq.Idx → EReal) (r cc : Fin 4096) : ℕ → EReal
  | 0 => 0 + Cert.Spec.blockDot a w r cc 0
  | 1 => (0 + Cert.Spec.blockDot a w r cc 0) + Cert.Spec.blockDot a w r cc 1
  | 2 => ((0 + Cert.Spec.blockDot a w r cc 0) + Cert.Spec.blockDot a w r cc 1) + Cert.Spec.blockDot a w r cc 2
  | _ => (((0 + Cert.Spec.blockDot a w r cc 0) + Cert.Spec.blockDot a w r cc 1) + Cert.Spec.blockDot a w r cc 2)
          + Cert.Spec.blockDot a w r cc 3

/-- THE INVARIANT. After point n = 16 i + 4 j + k the output block holds, at entry (p, q) — row r = 1024 i + p, column
    cc = 1024 j + q of the array —, the partial row product through piece k; after k = 3, the finished entry. -/
theorem outsAt_apply (c : Dev nD) : ∀ (n : ℕ) (h : n < cfg0.N) (p q : Fin 1024) (r cc : Fin 4096),
    r.val = 1024 * (n / 16) + p.val → cc.val = 1024 * (n / 4 % 4) + q.val →
    outsAt0 V c n h (ix2 p q)
      = if n % 4 = 3 then Cert.Spec.isyn (xarr V c) (warr V c) (parr V c) (ix2 r cc)
        else part (xarr V c) (warr V c) r cc (n % 4) := by
  intro n
  induction n using Nat.strong_induction_on with
  | _ n ih =>
    intro h p q r cc hr hc
    have hN : n < 64 := lt_of_lt_of_eq h (show cfg0.N = 64 from N_0)
    by_cases h0 : n % 4 = 0
    · have h1 : ¬ n % 4 = 3 := by omega
      rw [if_neg h1, h0]
      refine (congrFun (outsAt0_A V c ⟨n, h⟩ h0 h1) (ix2 p q)).trans ?_
      rw [out_A]
      refine (step_apply V c ⟨n, h⟩ 0 h0 p q r cc hr hc _).trans ?_
      rw [pay1_apply]
      rfl
    · by_cases h1 : n % 4 = 3
      · rw [if_pos h1]
        refine (congrFun (outsAt0_C V c ⟨n, h⟩ h0 h1) (ix2 p q)).trans ?_
        rw [out_C]
        refine (pay3_apply _ _ p q).trans ?_
        rw [step_apply V c ⟨n, h⟩ 3 h1 p q r cc hr hc,
          ih (n - 1) (by omega) (Nat.lt_of_le_of_lt (Nat.sub_le _ _) h) p q r cc (by omega) (by omega),
          if_neg (by omega), show (n - 1) % 4 = 2 by omega, Cert.Spec.isyn_ix2, Cert.Spec.rowDot_blocks]
        exact congrArg (fun z => Cert.Spec.ca * z + (part (xarr V c) (warr V c) r cc 2
          + Cert.Spec.blockDot (xarr V c) (warr V c) r cc 3)) (pblk_apply V c ⟨n, h⟩ p q r cc hr hc)
      · rw [if_neg h1]
        refine (congrFun (outsAt0_B V c ⟨n, h⟩ h0 h1) (ix2 p q)).trans ?_
        rw [out_B]
        have hk : n % 4 = 1 ∨ n % 4 = 2 := by omega
        rcases hk with hk | hk
        · rw [step_apply V c ⟨n, h⟩ 1 hk p q r cc hr hc,
            ih (n - 1) (by omega) (Nat.lt_of_le_of_lt (Nat.sub_le _ _) h) p q r cc (by omega) (by omega),
            if_neg (by omega), show (n - 1) % 4 = 0 by omega, hk]
          rfl
        · rw [step_apply V c ⟨n, h⟩ 2 hk p q r cc hr hc,
            ih (n - 1) (by omega) (Nat.lt_of_le_of_lt (Nat.sub_le _ _) h) p q r cc (by omega) (by omega),
            if_neg (by omega), show (n - 1) % 4 = 1 by omega, hk]
          rfl

/-- What the region leaves in its output array: the specification's isyn of the three arrays it reads. -/
abbrev G (c : Dev nD) : Cert.Spec.Sq.Idx → EReal := Cert.Spec.isyn (xarr V c) (warr V c) (parr V c)

/-- The block a closing point (k = 3) writes back is its block of `G`. -/
theorem flushed_eq (c : Dev nD) (t : Fin cfg0.N) (hf : (cfg0.win 3).flush t = true) :
    (dat0 V c).flushed 3 t = ((cfg0.win 3).blk t).view.read (Elt Ideal) (G V c) := by
  have h3 : t.val % 4 = 3 := (flush0_3 t).mp hf
  obtain ⟨-, -, -, -, -, -, e0, e1⟩ := idx_facts t
  show (cfg0.win 3).cut (grid0.coords t) ((dat0 V c).after 3 t) = _
  rw [after0_3]
  refine funext fun (j : S1024x1024.Idx) => ?_
  obtain ⟨p, q, rfl⟩ : ∃ p q : Fin 1024, j = ix2 p q := ⟨j 0, j 1, eq_ix2 j⟩
  have hp : p.val < 1024 := p.isLt
  have hq : q.val < 1024 := q.isLt
  have hN : t.val < 64 := lt_of_lt_of_eq t.isLt (show cfg0.N = 64 from N_0)
  show outsAt0 V c t.val t.isLt (ix2 p q) = G V c (((cfg0.win 3).blk t).view.emb (ix2 p q))
  have hr : 1024 * (t.val / 16) + p.val < 4096 := by omega
  have hc : 1024 * (t.val / 4 % 4) + q.val < 4096 := by omega
  have he : ((cfg0.win 3).blk t).view.emb (ix2 p q)
      = ix2 (⟨1024 * (t.val / 16) + p.val, hr⟩ : Fin 4096) (⟨1024 * (t.val / 4 % 4) + q.val, hc⟩ : Fin 4096) := by
    funext a
    apply Fin.ext
    match a with
    | ⟨0, _⟩ => show win0_3.index t 0 * 1024 + 1 * p.val = 1024 * (t.val / 16) + p.val; rw [e0]; omega
    | ⟨1, _⟩ => show win0_3.index t 1 * 1024 + 1 * q.val = 1024 * (t.val / 4 % 4) + q.val; rw [e1]; omega
  rw [he, outsAt_apply V c t.val t.isLt p q ⟨1024 * (t.val / 16) + p.val, hr⟩ ⟨1024 * (t.val / 4 % 4) + q.val, hc⟩ rfl rfl,
    if_pos h3]

/-- An index of the array lies in point t's output block iff each coordinate lies in the block's range on its axis. -/
theorem mem_blk (t : Fin cfg0.N) (i : S4096x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v0).slice (win0_3.rect t)).set ↔ _
  rw [View.set_slice_whole, Rect.mem_set_unit]
  exact Iff.rfl

/-- Entry (r, cc) of the array lies in the block of the closing point 16 (r / 1024) + 4 (cc / 1024) + 3. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  refine ⟨⟨16 * ((i 0).val / 1024) + 4 * ((i 1).val / 1024) + 3, by rw [hN]; omega⟩, (flush0_3 _).mpr (by dsimp only; omega), ?_⟩
  obtain ⟨-, -, -, -, -, -, e0, e1⟩ := idx_facts ⟨16 * ((i 0).val / 1024) + 4 * ((i 1).val / 1024) + 3, by rw [hN]; omega⟩
  dsimp only at e0 e1
  rw [mem_blk]
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 1024 ≤ (i 1).val ∧ (i 1).val < win0_3.index _ (1 : Fin 2) * 1024 + 1024
    rw [e1]; omega

end Region

theorem isyn_final (V : (c : Dev nD) → (b : Ref sig .tc) → Buf (Elt Ideal) ((c : Thread nD τ).loc b)) (c : Dev nD) :
    (dat0 (F := Ideal) V c).arrAt 3 cfg0.N = Cert.Spec.isyn (V c main_arg0) (V c main_arg5) (V c main_arg1) :=
  (dat0 (F := Ideal) V c).arrAt_eq_of_cover 3 (G V c) (flushed_eq V c) cover

end Cert.KernelIdeal.IsynRegion

end
-- ==== Proof.EpsRegion.lean ====
/-
  The second kernel region (eps0, eps1) read as a value at the ideal instance: whatever the region finds in its arrays,
  its two output arrays end holding a · prev_eps0 + x and b · prev_eps1 + (a · prev_eps0 + x), entry by entry.
-/
import proofs.«127716_j68977174773809_1_alg».proof.Proof.Gen.KernelIdeal.Frame
import proofs.«127716_j68977174773809_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.EpsRegion

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of an access to a whole buffer. -/
theorem hz : (![0, 0] : Fin 2 → Nat) = fun _ => 0 := funext fun a => by fin_cases a <;> rfl

/-- What the body leaves in the first output's buffer, entry by entry: a · pe0 + x of the point's blocks. -/
theorem out3_apply (x0 x1 x2 : Vec Ideal S1024x512 .f32) (y : S1024x512.Idx) :
    out1_3 x0 x1 x2 y = Cert.Spec.ca * x1 y + x0 y := by
  unfold out1_3
  rw [View.canon_unit_zero hz]
  simp only [View.ld_unit_zero (S := S1024x512) hz]
  rfl

/-- What the body leaves in the second output's buffer, entry by entry: b · pe1 + (a · pe0 + x). -/
theorem out4_apply (x0 x1 x2 : Vec Ideal S1024x512 .f32) (y : S1024x512.Idx) :
    out1_4 x0 x1 x2 y = Cert.Spec.cb * x2 y + (Cert.Spec.ca * x1 y + x0 y) := by
  unfold out1_4
  rw [View.canon_unit_zero hz]
  simp only [View.ld_unit_zero (S := S1024x512) hz]
  rfl

/-- The printed index maps, decided over the grid: at point t every window's block index is (t / 8, t % 8). -/
theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = t.val % 8
    ∧ win1_4.index t (0 : Fin 2) = t.val / 8 ∧ win1_4.index t (1 : Fin 2) = t.val % 8 :=
  (by decide +kernel : ∀ t : Fin grid1.N, _)

/-- Where entry j of the block of point t sits in a 4096 × 4096 array: row 1024 (t / 8) + j₀, column 512 (t % 8) + j₁. -/
def place (t : Fin cfg1.N) (j : S1024x512.Idx) : S4096x4096.Idx :=
  ix2 ⟨1024 * (t.val / 8) + (j 0).val, by
        have ht := t.isLt; have hN : cfg1.N = 32 := N_1; have hj : (j 0).val < 1024 := (j 0).isLt; omega⟩
      ⟨512 * (t.val % 8) + (j 1).val, by have hj : (j 1).val < 512 := (j 1).isLt; omega⟩

/-- Each of the five windows' blocks at point t is read from (written to) its array at these places. -/
theorem emb_win0 (t : Fin cfg1.N) (j : S1024x512.Idx) : ((cfg1.win 0).blk t).view.emb j = place t j := by
  obtain ⟨a0, a1, b0, b1, c0, c1, d0, d1, e0, e1⟩ := idx_facts t
  funext a; apply Fin.ext
  match a with
  | ⟨0, _⟩ => show win1_0.index t (0 : Fin 2) * 1024 + 1 * (j 0).val = 1024 * (t.val / 8) + (j 0).val; omega
  | ⟨1, _⟩ => show win1_0.index t (1 : Fin 2) * 512 + 1 * (j 1).val = 512 * (t.val % 8) + (j 1).val; omega
theorem emb_win1 (t : Fin cfg1.N) (j : S1024x512.Idx) : ((cfg1.win 1).blk t).view.emb j = place t j := by
  obtain ⟨a0, a1, b0, b1, c0, c1, d0, d1, e0, e1⟩ := idx_facts t
  funext a; apply Fin.ext
  match a with
  | ⟨0, _⟩ => show win1_1.index t (0 : Fin 2) * 1024 + 1 * (j 0).val = 1024 * (t.val / 8) + (j 0).val; omega
  | ⟨1, _⟩ => show win1_1.index t (1 : Fin 2) * 512 + 1 * (j 1).val = 512 * (t.val % 8) + (j 1).val; omega
theorem emb_win2 (t : Fin cfg1.N) (j : S1024x512.Idx) : ((cfg1.win 2).blk t).view.emb j = place t j := by
  obtain ⟨a0, a1, b0, b1, c0, c1, d0, d1, e0, e1⟩ := idx_facts t
  funext a; apply Fin.ext
  match a with
  | ⟨0, _⟩ => show win1_2.index t (0 : Fin 2) * 1024 + 1 * (j 0).val = 1024 * (t.val / 8) + (j 0).val; omega
  | ⟨1, _⟩ => show win1_2.index t (1 : Fin 2) * 512 + 1 * (j 1).val = 512 * (t.val % 8) + (j 1).val; omega
theorem emb_win3 (t : Fin cfg1.N) (j : S1024x512.Idx) : ((cfg1.win 3).blk t).view.emb j = place t j := by
  obtain ⟨a0, a1, b0, b1, c0, c1, d0, d1, e0, e1⟩ := idx_facts t
  funext a; apply Fin.ext
  match a with
  | ⟨0, _⟩ => show win1_3.index t (0 : Fin 2) * 1024 + 1 * (j 0).val = 1024 * (t.val / 8) + (j 0).val; omega
  | ⟨1, _⟩ => show win1_3.index t (1 : Fin 2) * 512 + 1 * (j 1).val = 512 * (t.val % 8) + (j 1).val; omega
theorem emb_win4 (t : Fin cfg1.N) (j : S1024x512.Idx) : ((cfg1.win 4).blk t).view.emb j = place t j := by
  obtain ⟨a0, a1, b0, b1, c0, c1, d0, d1, e0, e1⟩ := idx_facts t
  funext a; apply Fin.ext
  match a with
  | ⟨0, _⟩ => show win1_4.index t (0 : Fin 2) * 1024 + 1 * (j 0).val = 1024 * (t.val / 8) + (j 0).val; omega
  | ⟨1, _⟩ => show win1_4.index t (1 : Fin 2) * 512 + 1 * (j 1).val = 512 * (t.val % 8) + (j 1).val; omega

/-- What point t writes back of the first output is block t of a · prev_eps0 + x of the arrays the region finds. -/
theorem flushed3_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.eps0 (V c main_arg0) (V c main_arg3)) := by
  show (cfg1.win 3).cut (grid1.coords t) ((dat1 V c).after 3 t) = _
  rw [after1_3]
  funext j
  refine (out3_apply (iblk1 V c 0 t) (iblk1 V c 1 t) (iblk1 V c 2 t) ((cfg1.win 3).xinj (grid1.coords t) j)).trans ?_
  show Cert.Spec.ca * V c main_arg3 (((cfg1.win 1).blk t).view.emb j) + V c main_arg0 (((cfg1.win 0).blk t).view.emb j)
     = Cert.Spec.ca * V c main_arg3 (((cfg1.win 3).blk t).view.emb j) + V c main_arg0 (((cfg1.win 3).blk t).view.emb j)
  rw [emb_win0 t j, emb_win1 t j, emb_win3 t j]

/-- What point t writes back of the second output is block t of b · prev_eps1 + (a · prev_eps0 + x). -/
theorem flushed4_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (Cert.Spec.eps1 (V c main_arg0) (V c main_arg3) (V c main_arg4)) := by
  show (cfg1.win 4).cut (grid1.coords t) ((dat1 V c).after 4 t) = _
  rw [after1_4]
  funext j
  refine (out4_apply (iblk1 V c 0 t) (iblk1 V c 1 t) (iblk1 V c 2 t) ((cfg1.win 4).xinj (grid1.coords t) j)).trans ?_
  show Cert.Spec.cb * V c main_arg4 (((cfg1.win 2).blk t).view.emb j) + (Cert.Spec.ca * V c main_arg3 (((cfg1.win 1).blk t).view.emb j) + V c main_arg0 (((cfg1.win 0).blk t).view.emb j))
     = Cert.Spec.cb * V c main_arg4 (((cfg1.win 4).blk t).view.emb j) + (Cert.Spec.ca * V c main_arg3 (((cfg1.win 4).blk t).view.emb j) + V c main_arg0 (((cfg1.win 4).blk t).view.emb j))
  rw [emb_win0 t j, emb_win1 t j, emb_win2 t j, emb_win4 t j]

/-- An entry of the array is in the block of point t iff each of its coordinates is in the block's range. -/
theorem mem_blk3 (t : Fin cfg1.N) (i : S4096x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v4_0).slice (win1_3.rect t)).set ↔ _
  rw [View.set_slice_whole, Rect.mem_set_unit]
  exact Iff.rfl
theorem mem_blk4 (t : Fin cfg1.N) (i : S4096x4096.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v4_1).slice (win1_4.rect t)).set ↔ _
  rw [View.set_slice_whole, Rect.mem_set_unit]
  exact Iff.rfl

/-- The blocks tile the array: entry (r, c) lies in the block of point 8 (r / 1024) + c / 512, which is written back. -/
theorem cover3 (i : S4096x4096.Idx) : ∃ t : Fin cfg1.N, (cfg1.win 3).flush t = true ∧ i ∈ ((cfg1.win 3).blk t).view.set := by
  have h0 : (i 0).val < 4096 := (i 0).isLt
  have h1 : (i 1).val < 4096 := (i 1).isLt
  have hN : cfg1.N = 32 := N_1
  obtain ⟨t, ht⟩ : ∃ t : Fin cfg1.N, t.val = 8 * ((i 0).val / 1024) + (i 1).val / 512 := ⟨⟨_, by omega⟩, rfl⟩
  obtain ⟨-, -, -, -, -, -, d0, d1, -, -⟩ := idx_facts t
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega
theorem cover4 (i : S4096x4096.Idx) : ∃ t : Fin cfg1.N, (cfg1.win 4).flush t = true ∧ i ∈ ((cfg1.win 4).blk t).view.set := by
  have h0 : (i 0).val < 4096 := (i 0).isLt
  have h1 : (i 1).val < 4096 := (i 1).isLt
  have hN : cfg1.N = 32 := N_1
  obtain ⟨t, ht⟩ : ∃ t : Fin cfg1.N, t.val = 8 * ((i 0).val / 1024) + (i 1).val / 512 := ⟨⟨_, by omega⟩, rfl⟩
  obtain ⟨-, -, -, -, -, -, -, -, d0, d1⟩ := idx_facts t
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

/-- The first output array ends holding a · prev_eps0 + x of what the region found. -/
theorem eps0_final (V : (c : Dev nD) → (b : Ref sig .tc) → Buf (Elt Ideal) ((c : Thread nD τ).loc b)) (c : Dev nD) :
    (dat1 (F := Ideal) V c).arrAt 3 cfg1.N = Cert.Spec.eps0 (V c main_arg0) (V c main_arg3) :=
  (dat1 (F := Ideal) V c).arrAt_eq_of_cover 3 (Cert.Spec.eps0 (V c main_arg0) (V c main_arg3))
    (fun t _ => flushed3_eq V c t) cover3

/-- The second output array ends holding b · prev_eps1 + (a · prev_eps0 + x) of what the region found. -/
theorem eps1_final (V : (c : Dev nD) → (b : Ref sig .tc) → Buf (Elt Ideal) ((c : Thread nD τ).loc b)) (c : Dev nD) :
    (dat1 (F := Ideal) V c).arrAt 4 cfg1.N = Cert.Spec.eps1 (V c main_arg0) (V c main_arg3) (V c main_arg4) :=
  (dat1 (F := Ideal) V c).arrAt_eq_of_cover 4 (Cert.Spec.eps1 (V c main_arg0) (V c main_arg3) (V c main_arg4))
    (fun t _ => flushed4_eq V c t) cover4

end Cert.KernelIdeal.EpsRegion

end
-- ==== Proof.PvRegion.lean ====
/-
  The third kernel region (pv) read as a value at the ideal instance: whatever the region finds in its arrays, its
  output array ends holding eps1 · Wᵀ, entry by entry.
-/
import proofs.«127716_j68977174773809_1_alg».proof.Proof.Gen.KernelIdeal.Frame
import proofs.«127716_j68977174773809_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.PvRegion

open Idealize.ShloMosaic Idealize.ShloMosaic.TcCoe Idealize.SL.Sem Idealize.ShloMosaic.ValueIdx
open Idealize.ShloMosaic.Pipeline (Dat)
open Cert.KernelIdeal Cert.KernelIdeal.Gen

/-! ## What one grid point leaves in the output block's buffer -/

theorem hz : (![0, 0] : Fin 2 → Nat) = fun _ => 0 := funext fun a => by fin_cases a <;> rfl

section AnyValues
variable {F : FTy → Type} [FloatOps F]

/-- At a point with k ≠ 0 the body stores, over the carried block `xo`, `xo` plus the product of the two loaded blocks. -/
theorem out_B (c : Dev nD) (i : grid2.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (hc : ¬cond2_0 i) (x0 x1 xo : Vec F S1024x1024 .f32) :
    out2_B_2 c i a3 h3 a4 h4 a5 h5 hc x0 x1 xo = k2_pay2 x0 x1 xo := by
  unfold out2_B_2
  rw [View.read_writes_eq_canon _ _ _ (cover2_B_2 c i a3 h3 a4 h4 a5 h5 hc x0 x1 xo)]
  unfold kernelRun2_B
  dsimp only
  sl_unfold_words
  rw [View.canon_unit_zero hz]
  simp only [View.readAt_eq_ld, h3.read_unread, h4.read_unread, h5.read_unread, View.ld_unit_zero (S := S1024x1024) hz]

/-- At a point with k = 0 the body first stores the zero block, reads it back, and stores it plus the product of the two
    loaded blocks. -/
theorem out_A (c : Dev nD) (i : grid2.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (hc : cond2_0 i) (x0 x1 : Vec F S1024x1024 .f32) :
    out2_A_2 c i a3 h3 a4 h4 a5 h5 hc x0 x1 = k2_pay2 x0 x1 (k2_pay1 (F := F)) := by
  unfold out2_A_2
  rw [View.read_writes_eq_canon _ _ _ (cover2_A_2 c i a3 h3 a4 h4 a5 h5 hc x0 x1)]
  unfold kernelRun2_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The stored value with the identity reshapes dropped: the carried block plus the two loaded blocks' product, rows of
    the first against rows of the second, into a zero accumulator. -/
theorem pay2_eq (x0 x1 xo : Vec F S1024x1024 .f32) :
    k2_pay2 x0 x1 xo = addf xo (matmul dot_S1024x1024_S1024x1024_S1024x1024_1_1_0_0_n_n none
      (truncf .bf16 x0 bitsLt_bf16_f32) (truncf .bf16 x1 bitsLt_bf16_f32) (constant S1024x1024 .f32 0x00000000#32)) := by
  unfold k2_pay2
  simp only [shapeCast_self]

end AnyValues

/-! ## The body's arithmetic at an entry, over the extended reals -/

-- The product's dimension numbers: both operands are contracted along their axis 1; the output's row is the first
-- operand's row and its column the second operand's row.
theorem lhs_pv_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_pv_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_pv_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_pv_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The block product at entry (p, q): row p of the first block against row q of the second. -/
theorem mm_apply (a b : FVec Ideal S1024x1024 .bf16) (p q : Fin 1024) :
    (matmul dot_S1024x1024_S1024x1024_S1024x1024_1_1_0_0_n_n none a b (constant S1024x1024 .f32 0x00000000#32) : FVec Ideal S1024x1024 .f32) (ix2 p q)
      = ∑ l : Fin 1024, a (ix2 p l) * b (ix2 q l) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_pv_0 _ _
    | ⟨1, _⟩ => exact (lhs_pv_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_pv_0 _ _
    | ⟨1, _⟩ => exact (rhs_pv_1 _ _).trans hk)
  rw [el, er]

/-- The stored value at entry (p, q): what the block held there plus row p of the first block against row q of the second. -/
theorem pay2_apply (x0 x1 xo : Vec Ideal S1024x1024 .f32) (p q : Fin 1024) :
    k2_pay2 (F := Ideal) x0 x1 xo (ix2 p q) = xo (ix2 p q) + ∑ l : Fin 1024, x0 (ix2 p l) * x1 (ix2 q l) := by
  rw [pay2_eq, addf_apply, mm_apply]
  rfl

/-- The reset block is zero everywhere. -/
theorem pay1_apply (p q : Fin 1024) : k2_pay1 (F := Ideal) (ix2 p q) = 0 := by
  unfold k2_pay1
  exact Ideal.ofBits_zero_f32

/-! ## The blocks as pieces of the arrays

The grid point t = 16 i + 4 j + k reads block (i, k) of the first array and block (j, k) of the second, and carries block
(i, j) of the output. -/

/-- A number's residue mod 4 as a block index. -/
abbrev bk (n : ℕ) : Fin 4 := ⟨n % 4, Nat.mod_lt _ (by decide)⟩

/-- The three index maps in closed form, decided over the 64 grid points. -/
theorem idx_facts : ∀ t : Fin cfg2.N,
    win2_0.index t (0 : Fin 2) = t.val / 16 % 4 ∧ win2_0.index t (1 : Fin 2) = t.val % 4
    ∧ win2_1.index t (0 : Fin 2) = t.val / 4 % 4 ∧ win2_1.index t (1 : Fin 2) = t.val % 4
    ∧ win2_2.index t (0 : Fin 2) = t.val / 16 % 4 ∧ win2_2.index t (1 : Fin 2) = t.val / 4 % 4 :=
  (by decide +kernel : ∀ t : Fin grid2.N, _)

section Blocks
variable (V : (c : Dev nD) → (b : Ref sig .tc) → Buf (Elt Ideal) ((c : Thread nD τ).loc b)) (c : Dev nD)

/-- The two operands' blocks at point t, as 1024 × 1024 blocks of extended reals. -/
abbrev eblk (t : Fin cfg2.N) : Vec Ideal S1024x1024 .f32 := iblk2 V c 0 t
abbrev wblk (t : Fin cfg2.N) : Vec Ideal S1024x1024 .f32 := iblk2 V c 1 t

/-- The first operand's block at point t, entry (p, l): the first array at row 1024 i + p, column 1024 k + l. -/
theorem eblk_apply (t : Fin cfg2.N) (p l : Fin 1024) :
    eblk V c t (ix2 p l)
      = (V c main_v4_1 : Cert.Spec.Sq.Idx → EReal) (ix2 (Cert.Spec.colAt (bk (t.val / 16)) p) (Cert.Spec.colAt (bk t.val) l)) := by
  obtain ⟨e0, e1, -, -, -, -⟩ := idx_facts t
  unfold eblk iblk2
  rw [View.read_apply]
  show V c main_v4_1 (((cfg2.win 0).blk t).view.emb (ix2 p l)) = V c main_v4_1 _
  congr 1
  funext a
  apply Fin.ext
  match a with
  | ⟨0, _⟩ => show win2_0.index t 0 * 1024 + 1 * p.val = 1024 * (t.val / 16 % 4) + p.val; rw [e0]; omega
  | ⟨1, _⟩ => show win2_0.index t 1 * 1024 + 1 * l.val = 1024 * (t.val % 4) + l.val; rw [e1]; omega

/-- The second operand's block at point t, entry (q, l): the second array at row 1024 j + q, column 1024 k + l. -/
theorem wblk_apply (t : Fin cfg2.N) (q l : Fin 1024) :
    wblk V c t (ix2 q l)
      = (V c main_arg5 : Cert.Spec.Sq.Idx → EReal) (ix2 (Cert.Spec.colAt (bk (t.val / 4)) q) (Cert.Spec.colAt (bk t.val) l)) := by
  obtain ⟨-, -, e0, e1, -, -⟩ := idx_facts t
  unfold wblk iblk2
  rw [View.read_apply]
  show V c main_arg5 (((cfg2.win 1).blk t).view.emb (ix2 q l)) = V c main_arg5 _
  congr 1
  funext a
  apply Fin.ext
  match a with
  | ⟨0, _⟩ => show win2_1.index t 0 * 1024 + 1 * q.val = 1024 * (t.val / 4 % 4) + q.val; rw [e0]; omega
  | ⟨1, _⟩ => show win2_1.index t 1 * 1024 + 1 * l.val = 1024 * (t.val % 4) + l.val; rw [e1]; omega

/-- So the two blocks' product at (p, q) is the k-th piece of the row product of the arrays. -/
theorem point_dot (t : Fin cfg2.N) (p q : Fin 1024) :
    ∑ l : Fin 1024, eblk V c t (ix2 p l) * wblk V c t (ix2 q l)
      = Cert.Spec.blockDot (V c main_v4_1) (V c main_arg5) (Cert.Spec.colAt (bk (t.val / 16)) p) (Cert.Spec.colAt (bk (t.val / 4)) q) (bk t.val) := by
  unfold Cert.Spec.blockDot
  refine Finset.sum_congr rfl fun l _ => ?_
  rw [eblk_apply, wblk_apply]

end Blocks

/-! ## The carried block after each grid point -/

/-- The accumulator after the pieces 0 … k of a row product: zero, then the pieces added in order. -/
def acc (e w : Cert.Spec.Sq.Idx → EReal) (r s : Fin 4096) : ℕ → EReal
  | 0 => 0 + Cert.Spec.blockDot e w r s 0
  | k + 1 => acc e w r s k + Cert.Spec.blockDot e w r s (bk (k + 1))

/-- After all four pieces it is the whole row product. -/
theorem acc_three (e w : Cert.Spec.Sq.Idx → EReal) (r s : Fin 4096) : acc e w r s 3 = Cert.Spec.rowDot e w r s := by
  rw [Cert.Spec.rowDot_blocks]
  rfl

section Points
variable (V : (c : Dev nD) → (b : Ref sig .tc) → Buf (Elt Ideal) ((c : Thread nD τ).loc b)) (c : Dev nD)

/-- A point with k = 0 leaves, at (p, q), zero plus piece 0 of the row product. -/
theorem step_A (n : ℕ) (h : n < cfg2.N) (h0 : n % 4 = 0) (p q : Fin 1024) :
    outsAt2 (F := Ideal) V c n h (ix2 p q)
      = 0 + Cert.Spec.blockDot (V c main_v4_1) (V c main_arg5) (Cert.Spec.colAt (bk (n / 16)) p) (Cert.Spec.colAt (bk (n / 4)) q) (bk n) := by
  rw [outsAt2_A V c ⟨n, h⟩ h0]
  refine (congrFun (out_A (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩)
    ((hcond2_0 ⟨n, h⟩).mpr h0) (eblk V c ⟨n, h⟩) (wblk V c ⟨n, h⟩)) (ix2 p q)).trans ?_
  refine (pay2_apply (eblk V c ⟨n, h⟩) (wblk V c ⟨n, h⟩) (k2_pay1 (F := Ideal)) p q).trans ?_
  rw [pay1_apply]
  exact congrArg (0 + ·) (point_dot V c ⟨n, h⟩ p q)

/-- A point with k ≠ 0 adds piece k to what the point before left. -/
theorem step_B (n : ℕ) (h : n + 1 < cfg2.N) (h0 : ¬(n + 1) % 4 = 0) (p q : Fin 1024) :
    outsAt2 (F := Ideal) V c (n + 1) h (ix2 p q)
      = outsAt2 (F := Ideal) V c n (Nat.lt_of_succ_lt h) (ix2 p q)
        + Cert.Spec.blockDot (V c main_v4_1) (V c main_arg5) (Cert.Spec.colAt (bk ((n + 1) / 16)) p) (Cert.Spec.colAt (bk ((n + 1) / 4)) q) (bk (n + 1)) := by
  rw [outsAt2_B V c ⟨n + 1, h⟩ h0]
  refine (congrFun (out_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
    (fun hh => h0 ((hcond2_0 ⟨n + 1, h⟩).mp hh)) (eblk V c ⟨n + 1, h⟩) (wblk V c ⟨n + 1, h⟩) (outsAt2 V c n (Nat.lt_of_succ_lt h))) (ix2 p q)).trans ?_
  refine (pay2_apply (eblk V c ⟨n + 1, h⟩) (wblk V c ⟨n + 1, h⟩) (outsAt2 V c n (Nat.lt_of_succ_lt h)) p q).trans ?_
  exact congrArg (outsAt2 (F := Ideal) V c n (Nat.lt_of_succ_lt h) (ix2 p q) + ·) (point_dot V c ⟨n + 1, h⟩ p q)

/-- After the point n = 16 i + 4 j + k the carried block holds, at (p, q), the pieces 0 … k of row 1024 i + p of the
    first array against row 1024 j + q of the second. -/
theorem outsAt_apply : ∀ (n : ℕ) (h : n < cfg2.N) (p q : Fin 1024),
    outsAt2 (F := Ideal) V c n h (ix2 p q)
      = acc (V c main_v4_1) (V c main_arg5) (Cert.Spec.colAt (bk (n / 16)) p) (Cert.Spec.colAt (bk (n / 4)) q) (n % 4)
  | 0, h, p, q => step_A V c 0 h rfl p q
  | n + 1, h, p, q => by
    by_cases h0 : (n + 1) % 4 = 0
    · rw [step_A V c (n + 1) h h0 p q, h0, show bk (n + 1) = 0 from Fin.ext h0]
      rfl
    · have e1 : bk ((n + 1) / 16) = bk (n / 16) := Fin.ext (by show (n + 1) / 16 % 4 = n / 16 % 4; omega)
      have e2 : bk ((n + 1) / 4) = bk (n / 4) := Fin.ext (by show (n + 1) / 4 % 4 = n / 4 % 4; omega)
      have e3 : (n + 1) % 4 = n % 4 + 1 := by omega
      have e4 : bk (n + 1) = bk (n % 4 + 1) := Fin.ext (by show (n + 1) % 4 = (n % 4 + 1) % 4; omega)
      rw [step_B V c n h h0 p q, outsAt_apply n (Nat.lt_of_succ_lt h) p q, e1, e2, e3, e4]
      rfl

end Points

/-! ## The write-backs and the whole array -/

section Final
variable (V : (c : Dev nD) → (b : Ref sig .tc) → Buf (Elt Ideal) ((c : Thread nD τ).loc b)) (c : Dev nD)

/-- The points with k = 3 write the carried block back, and it is block (i, j) of the product array. -/
theorem flushed_eq (t : Fin cfg2.N) (hf : (cfg2.win 2).flush t = true) :
    (dat2 (F := Ideal) V c).flushed 2 t
      = ((cfg2.win 2).blk t).view.read (Elt Ideal) (Cert.Spec.pv (V c main_v4_1) (V c main_arg5)) := by
  have h3 : t.val % 4 = 3 := (flush2_2 t).mp hf
  obtain ⟨-, -, -, -, e0, e1⟩ := idx_facts t
  show (cfg2.win 2).cut (grid2.coords t) ((dat2 V c).after 2 t) = _
  rw [after2_2]
  funext y
  obtain ⟨p, q, rfl⟩ : ∃ (p q : Fin 1024), y = ix2 p q := ⟨y 0, y 1, eq_ix2 y⟩
  rw [View.read_apply]
  show outsAt2 V c t.val t.isLt (ix2 p q) = Cert.Spec.pv (V c main_v4_1) (V c main_arg5) (((cfg2.win 2).blk t).view.emb (ix2 p q))
  have hemb : ((cfg2.win 2).blk t).view.emb (ix2 p q) = ix2 (Cert.Spec.colAt (bk (t.val / 16)) p) (Cert.Spec.colAt (bk (t.val / 4)) q) := by
    funext a
    apply Fin.ext
    match a with
    | ⟨0, _⟩ => show win2_2.index t 0 * 1024 + 1 * p.val = 1024 * (t.val / 16 % 4) + p.val; rw [e0]; omega
    | ⟨1, _⟩ => show win2_2.index t 1 * 1024 + 1 * q.val = 1024 * (t.val / 4 % 4) + q.val; rw [e1]; omega
  rw [hemb, Cert.Spec.pv_ix2, outsAt_apply V c t.val t.isLt p q, h3, acc_three]

/-- An entry of the array lies in point t's block iff each coordinate lies in the block's range on its axis. -/
theorem mem_blk (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v5).slice (win2_2.rect t)).set ↔ _
  rw [View.set_slice_whole, Rect.mem_set_unit]
  exact Iff.rfl

end Final

/-- Every entry (r, s) of the output lies in the block written back at the point 16 (r / 1024) + 4 (s / 1024) + 3, so the
    array ends holding the product. -/
theorem pv_final (V : (c : Dev nD) → (b : Ref sig .tc) → Buf (Elt Ideal) ((c : Thread nD τ).loc b)) (c : Dev nD) :
    (dat2 (F := Ideal) V c).arrAt 2 cfg2.N = Cert.Spec.pv (V c main_v4_1) (V c main_arg5) :=
  (dat2 (F := Ideal) V c).arrAt_eq_of_cover 2 (Cert.Spec.pv (V c main_v4_1) (V c main_arg5)) (fun t hf => flushed_eq V c t hf) fun i => by
    have hN : cfg2.N = 64 := N_2
    have hr : (i 0).val < 4096 := (i 0).isLt
    have hs : (i 1).val < 4096 := (i 1).isLt
    obtain ⟨t, ht⟩ : ∃ t : Fin cfg2.N, t.val = 16 * ((i 0).val / 1024) + 4 * ((i 1).val / 1024) + 3 :=
      ⟨⟨16 * ((i 0).val / 1024) + 4 * ((i 1).val / 1024) + 3, by rw [hN]; omega⟩, rfl⟩
    obtain ⟨-, -, -, -, e0, e1⟩ := idx_facts t
    refine ⟨t, (flush2_2 t).mpr (by omega), ?_⟩
    rw [mem_blk]
    intro a
    match a with
    | ⟨0, _⟩ => show win2_2.index t 0 * 1024 ≤ (i 0).val ∧ (i 0).val < win2_2.index t 0 * 1024 + 1024; rw [e0]; omega
    | ⟨1, _⟩ => show win2_2.index t 1 * 1024 ≤ (i 1).val ∧ (i 1).val < win2_2.index t 1 * 1024 + 1024; rw [e1]; omega

end Cert.KernelIdeal.PvRegion

end
-- ==== Proof.RefRead.lean ====
/-
  The reference program read at the ideal instance, one stage at a time, into the specification's functions:
  the host's `dot_general` of an array with the transpose of `W` is the row-against-row product (each entry a sum over
  the 4096 columns, left factor first), so its first result is `isyn`, its third and fourth `eps0` and `eps1` (pointwise),
  and the operand of its classifier head is `pv` of `eps1`.
-/
import proofs.«127716_j68977174773809_1_alg».proof.Defs
import proofs.«127716_j68977174773809_1_alg».proof.Proof.RefRunP
import proofs.«127716_j68977174773809_1_alg».proof.Proof.RefReadP
import proofs.«127716_j68977174773809_1_alg».proof.Proof.Spec

noncomputable section

namespace Cert.ReferenceIdeal.RefRead

open Idealize.ShloMosaic Idealize.SL.Sem Idealize.ShloMosaic.ValueIdx
open Cert.ReferenceIdeal Cert.ReferenceIdeal.ReadP

/-- The host's product of `e` with `Wᵀ`, entry (r, c): the sum over k of `e (r, k) · W (c, k)`. -/
theorem dot_eq (e w : (⟨S4096x4096, .f32⟩ : BufTy).Contents (Elt Ideal)) :
    val_main_v3 (F := Ideal) e w = Cert.Spec.pv e w := by
  funext i
  rw [val_main_v3_apply]
  show _ = Cert.Spec.rowDot e w (Cert.Spec.row i) (Cert.Spec.col i)
  unfold Cert.Spec.rowDot
  refine Finset.sum_congr rfl fun k _ => ?_
  rw [val_main_v2_apply]
  have hl : lidx_main_v3 i k = ix2 (Cert.Spec.row i) k :=
    funext fun a => by match a with | ⟨0, _⟩ => rfl | ⟨1, _⟩ => rfl
  have hr : idx_main_v2 (ridx_main_v3 i k) = ix2 (Cert.Spec.col i) k :=
    funext fun a => by match a with | ⟨0, _⟩ => rfl | ⟨1, _⟩ => rfl
  rw [hl, hr]

/-- The reference's isyn. -/
theorem isyn_eq (x0 x1 x5 : (⟨S4096x4096, .f32⟩ : BufTy).Contents (Elt Ideal)) :
    val_main_v4 (F := Ideal) x0 x1 x5 = Cert.Spec.isyn x0 x5 x1 := by
  funext i
  rw [val_main_v4_apply, val_main_v1_apply, val_main_v0_apply, val_main_cst_apply, dot_eq]
  rfl

/-- The reference's eps0. -/
theorem eps0_eq (x0 x3 : (⟨S4096x4096, .f32⟩ : BufTy).Contents (Elt Ideal)) :
    val_main_v10 (F := Ideal) x0 x3 = Cert.Spec.eps0 x0 x3 := by
  funext i
  rw [val_main_v10_apply, val_main_v9_apply, val_main_v8_apply, val_main_cst_1_apply]
  rfl

/-- The reference's eps1. -/
theorem eps1_eq (x0 x3 x4 : (⟨S4096x4096, .f32⟩ : BufTy).Contents (Elt Ideal)) :
    val_main_v13 (F := Ideal) x0 x3 x4 = Cert.Spec.eps1 x0 x3 x4 := by
  funext i
  rw [val_main_v13_apply, val_main_v12_apply, val_main_v11_apply, val_main_cst_2_apply, eps0_eq]
  rfl

end Cert.ReferenceIdeal.RefRead

end
-- ==== Proof.Bridge.lean ====
/-
  The two idealized programs end with the same six results.

  Both runs are stated with ONE family of result terms over the kernel program's argument arrays:
    isyn     = a · prev_isyn + x · Wᵀ                       (the specification's function)
    vmem     = b · prev_vmem + isyn                          (the host's multiply and add, the same on both sides)
    eps0     = a · prev_eps0 + x,   eps1 = b · prev_eps1 + eps0
    output   = the threshold of vmem at 1/2
    pvoutput = log-softmax (sigmoid ((eps1 · Wᵀ) · Woᵀ + bo))  (the host's classifier head, the same on both sides)
  The kernel program reaches them through its three regions (a blocked accumulation for the two products, a pointwise
  body for eps0 and eps1); the reference through its host operations, whose `dot_general` is the same row-against-row
  sum. The host chains the two programs share (vmem from isyn, the threshold, the classifier head) are carried as one
  function applied to equal operands and never opened.
-/
import proofs.«127716_j68977174773809_1_alg».proof.Defs
import proofs.«127716_j68977174773809_1_alg».proof.Proof.Gen.Kernel.Frame
import proofs.«127716_j68977174773809_1_alg».proof.Proof.Gen.KernelIdeal.Frame
import proofs.«127716_j68977174773809_1_alg».proof.Proof.Gen.Pre_finite_inputs
import proofs.«127716_j68977174773809_1_alg».proof.Proof.KRun
import proofs.«127716_j68977174773809_1_alg».proof.Proof.Walk
import proofs.«127716_j68977174773809_1_alg».proof.Proof.IsynRegion
import proofs.«127716_j68977174773809_1_alg».proof.Proof.EpsRegion
import proofs.«127716_j68977174773809_1_alg».proof.Proof.PvRegion
import proofs.«127716_j68977174773809_1_alg».proof.Proof.RefRead

set_option maxRecDepth 16384

noncomputable section

namespace Cert.Proof.Bridge

open Idealize.ShloMosaic Idealize.ShloMosaic.TcCoe Idealize.SL.Sem
open Cert.KernelIdeal.Walk (vmemOf spikes head logSoftmax)

/-! ## The result terms, over the kernel program's argument arrays -/

section Results

variable (m : (ℓ : Loc Cert.KernelIdeal.nD Cert.KernelIdeal.τ Cert.KernelIdeal.sig) → Buf (Elt Ideal) ℓ) (c : Dev Cert.KernelIdeal.nD)

def isynR : Buf (Elt Ideal) ((c.tc : Thread Cert.KernelIdeal.nD Cert.KernelIdeal.τ).loc Cert.KernelIdeal.main_v0) :=
  Cert.Spec.isyn (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg1))
def vmemR : Buf (Elt Ideal) ((c.tc : Thread Cert.KernelIdeal.nD Cert.KernelIdeal.τ).loc Cert.KernelIdeal.main_v3) :=
  vmemOf (m ((c.tc : Thread Cert.KernelIdeal.nD Cert.KernelIdeal.τ).loc Cert.KernelIdeal.main_arg2)) (isynR m c)
def eps0R : Buf (Elt Ideal) ((c.tc : Thread Cert.KernelIdeal.nD Cert.KernelIdeal.τ).loc Cert.KernelIdeal.main_v4_0) :=
  Cert.Spec.eps0 (m ((c.tc : Thread Cert.KernelIdeal.nD Cert.KernelIdeal.τ).loc Cert.KernelIdeal.main_arg0)) (m ((c.tc : Thread Cert.KernelIdeal.nD Cert.KernelIdeal.τ).loc Cert.KernelIdeal.main_arg3))
def eps1R : Buf (Elt Ideal) ((c.tc : Thread Cert.KernelIdeal.nD Cert.KernelIdeal.τ).loc Cert.KernelIdeal.main_v4_1) :=
  Cert.Spec.eps1 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
def outR : Buf (Elt Ideal) ((c.tc : Thread Cert.KernelIdeal.nD Cert.KernelIdeal.τ).loc Cert.KernelIdeal.main_v8) :=
  spikes (vmemR m c)
def pvoR : Buf (Elt Ideal) ((c.tc : Thread Cert.KernelIdeal.nD Cert.KernelIdeal.τ).loc Cert.KernelIdeal.main_v20) :=
  logSoftmax (head (Cert.Spec.pv (eps1R m c) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))

end Results

/-! ## The kernel program's run -/

open Cert.KernelIdeal Cert.KernelIdeal.Gen in
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = isynR m c
      ∧ r.2.mem ((c.tc : Thread Cert.KernelIdeal.nD Cert.KernelIdeal.τ).loc Cert.KernelIdeal.main_v3) = vmemR m c
      ∧ r.2.mem ((c.tc : Thread Cert.KernelIdeal.nD Cert.KernelIdeal.τ).loc Cert.KernelIdeal.main_v4_0) = eps0R m c
      ∧ r.2.mem ((c.tc : Thread Cert.KernelIdeal.nD Cert.KernelIdeal.τ).loc Cert.KernelIdeal.main_v4_1) = eps1R m c
      ∧ r.2.mem ((c.tc : Thread Cert.KernelIdeal.nD Cert.KernelIdeal.τ).loc Cert.KernelIdeal.main_v8) = outR m c
      ∧ r.2.mem ((c.tc : Thread Cert.KernelIdeal.nD Cert.KernelIdeal.τ).loc Cert.KernelIdeal.main_v20) = pvoR m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run (Cert.KernelIdeal.defs (F := Ideal)) _ _).mono (fun r h c => ?_) (Cert.KernelIdeal.GenRun.run_values (F := Ideal) m ρ)
  obtain ⟨h0, h1, h2, h3, h4, h5, hargs⟩ := h c
  have e0 : (dat0 (F := Ideal) (V0 m ρ) c).arrAt 3 cfg0.N = isynR m c :=
    Cert.KernelIdeal.IsynRegion.isyn_final (V0 m ρ) c
  have e2 : (dat1 (F := Ideal) (V2 m ρ) c).arrAt 3 cfg1.N = eps0R m c := by
    rw [Cert.KernelIdeal.EpsRegion.eps0_final (V2 m ρ) c, Cert.KernelIdeal.Walk.V2_arg0 m ρ c, Cert.KernelIdeal.Walk.V2_arg3 m ρ c]; rfl
  have e3 : (dat1 (F := Ideal) (V2 m ρ) c).arrAt 4 cfg1.N = eps1R m c := by
    rw [Cert.KernelIdeal.EpsRegion.eps1_final (V2 m ρ) c, Cert.KernelIdeal.Walk.V2_arg0 m ρ c, Cert.KernelIdeal.Walk.V2_arg3 m ρ c, Cert.KernelIdeal.Walk.V2_arg4 m ρ c]; rfl
  have e5 : (dat2 (F := Ideal) (V3 m ρ) c).arrAt 2 cfg2.N = Cert.Spec.pv (eps1R m c) (m ((c.tc : Thread Cert.KernelIdeal.nD Cert.KernelIdeal.τ).loc Cert.KernelIdeal.main_arg5)) := by
    rw [Cert.KernelIdeal.PvRegion.pv_final (V3 m ρ) c, Cert.KernelIdeal.Walk.V3_v4_1 m ρ c, Cert.KernelIdeal.Walk.V3_arg5 m ρ c, e3]
  refine ⟨h0.trans ((Cert.KernelIdeal.Walk.at_v0 m ρ c).trans e0), h1.trans ?_, h2.trans ((Cert.KernelIdeal.Walk.at_v4_0 m ρ c).trans e2),
    h3.trans ((Cert.KernelIdeal.Walk.at_v4_1 m ρ c).trans e3), h4.trans ?_, h5.trans ?_, hargs⟩
  · rw [Cert.KernelIdeal.Walk.at_v3 m ρ c, e0]; rfl
  · rw [Cert.KernelIdeal.Walk.at_v8 m ρ c, e0]; rfl
  · rw [Cert.KernelIdeal.Walk.at_v20 m ρ c, e5]; rfl

/-! ## The reference's run, in the same terms over ITS argument arrays -/

/-- The reference's last result is the classifier head of `eps1 · Wᵀ`: the same host chain, read off its composed term. -/
theorem ref_tail {F : FTy → Type} [FloatOps F] (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v30 m c
      = logSoftmax (head (Cert.ReferenceIdeal.ReadP.val_main_v3 (F := F) (Cert.ReferenceIdeal.ReadP.val_main_v13 (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) (m ((c.tc : Thread Cert.ReferenceIdeal.nD Cert.ReferenceIdeal.τ).loc Cert.ReferenceIdeal.main_arg5)))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) := by
  unfold Cert.ReferenceIdeal.ValueP.res_main_v30
  rfl

open Cert.ReferenceIdeal Cert.ReferenceIdeal.ReadP Cert.ReferenceIdeal.RefRead in
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v4) = Cert.Spec.isyn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v7) = vmemOf (m ((c.tc : Thread Cert.ReferenceIdeal.nD Cert.ReferenceIdeal.τ).loc Cert.ReferenceIdeal.main_arg2)) (Cert.Spec.isyn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_v10) = Cert.Spec.eps0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v13) = Cert.Spec.eps1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v18) = spikes (vmemOf (m ((c.tc : Thread Cert.ReferenceIdeal.nD Cert.ReferenceIdeal.τ).loc Cert.ReferenceIdeal.main_arg2)) (Cert.Spec.isyn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg1))))
      ∧ r.2.mem ((c.tc : Thread Cert.ReferenceIdeal.nD Cert.ReferenceIdeal.τ).loc Cert.ReferenceIdeal.main_v30) = logSoftmax (head (Cert.Spec.pv (Cert.Spec.eps1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) (m ((c.tc : Thread Cert.ReferenceIdeal.nD Cert.ReferenceIdeal.τ).loc Cert.ReferenceIdeal.main_arg5))) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) := by
  refine (θ_run (Cert.ReferenceIdeal.defs (F := Ideal)) _ _).mono (fun r h c => ?_) (Cert.ReferenceIdeal.ValueP.run (F := Ideal) m ρ)
  obtain ⟨h0, h1, h2, h3, h4, h5, hargs⟩ := h c
  have ei := (val_main_v4_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5))).trans (isyn_eq _ _ _)
  refine ⟨h0.trans ei, h1.trans (congrArg (vmemOf (m ((c.tc : Thread Cert.ReferenceIdeal.nD Cert.ReferenceIdeal.τ).loc Cert.ReferenceIdeal.main_arg2))) ei),
    h2.trans ((val_main_v10_eq (F := Ideal) _ _).trans (eps0_eq _ _)),
    h3.trans ((val_main_v13_eq (F := Ideal) _ _ _).trans (eps1_eq _ _ _)),
    h4.trans (congrArg (fun z => spikes (vmemOf (m ((c.tc : Thread Cert.ReferenceIdeal.nD Cert.ReferenceIdeal.τ).loc Cert.ReferenceIdeal.main_arg2)) z)) ei),
    h5.trans ((ref_tail m c).trans (congrArg (fun z => logSoftmax (head z (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))) ?_)), hargs⟩
  rw [dot_eq, eps1_eq]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run (Cert.ReferenceIdeal.defs (F := Ideal)) _ _).mono (fun _ h c => (h c).2.2.2.2.2.2) (Cert.ReferenceIdeal.ValueP.run (F := Ideal) m ρ)

/-- The ideal pass rewrote nothing. -/
theorem preserves : Cert.preserves_Kernel_KernelIdeal := trivial

/-- From memories that agree on the arguments both programs end at the same six results: the kernel program's run and the
    reference's are stated in the same terms, and the agreement of the arguments carries one into the other. -/
theorem algebraic : Cert.algebraic_KernelIdeal_ReferenceIdeal := by
  intro m ρ m' ρ' _ hagree
  refine ⟨isynR m, vmemR m, eps0R m, eps1R m, outR m, pvoR m, kernel_run m ρ, ?_⟩
  refine (θ_run (Cert.ReferenceIdeal.defs (F := Ideal)) _ _).mono (fun r h c => ?_) (ref_run m' ρ')
  obtain ⟨a0, a1, a2, a3, a4, a5, a6, a7⟩ := hagree c
  obtain ⟨h0, h1, h2, h3, h4, h5, hargs⟩ := h c
  refine ⟨h0.trans ?_, h1.trans ?_, h2.trans ?_, h3.trans ?_, h4.trans ?_, h5.trans ?_, hargs⟩
  · rw [a0, a5, a1]; rfl
  · rw [a2, a0, a5, a1]; rfl
  · rw [a0, a3]; rfl
  · rw [a0, a3, a4]; rfl
  · rw [a2, a0, a5, a1]; rfl
  · rw [a0, a3, a4, a5, a6, a7]; rfl

end Cert.Proof.Bridge

end
-- ==== Proof.lean ====
/-
  The certificate of the leaky-integrator step with its classifier head: a Pallas kernel program of three regions (a
  blocked matmul accumulated over the contracted axis with the decay term added at the last block, a pointwise update
  of the two eligibility traces, a second blocked matmul) against its jnp reference, equal as extended reals.

  The three frames are the generated ones (the reference's is its run with the results dropped); the ideal pass
  rewrote nothing, so `preserves` is trivial; `algebraic` is Proof/Bridge.lean: both programs end at
    isyn = a · prev_isyn + x · Wᵀ,  vmem = b · prev_vmem + isyn,  eps0 = a · prev_eps0 + x,  eps1 = b · prev_eps1 + eps0,
    output = [vmem > 1/2],  pvoutput = log-softmax (sigmoid ((eps1 · Wᵀ) · Woᵀ + bo)),
  the kernel's blocked sums being the reference's whole sums regrouped (Proof/Spec.lean), which needs no finiteness.
-/
import proofs.«127716_j68977174773809_1_alg».proof.Defs
import proofs.«127716_j68977174773809_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
